-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x1 : Shape := ⟨2, ![128, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S800000 32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_c_6 : IVec S_ 32 := constantI S_ 32 0#32
  let main_v19 : IVec S800000 32 := broadcastInDim S800000 ![] bcast_S_S800000 main_c_6
  let main_v20 : IVec S800000 1 := cmpi .sge main_arg1 main_v19
  let main_c_7 : IVec S_ 32 := constantI S_ 32 100000#32
  let main_v21 : IVec S800000 32 := broadcastInDim S800000 ![] bcast_S_S800000 main_c_7
  let main_v22 : IVec S800000 1 := cmpi .slt main_arg1 main_v21
  let main_v23 : IVec S800000 1 := andi main_v20 main_v22
  let main_c_8 : IVec S_ 1 := constantI S_ 1 1#1
  let main_v24 : IVec S_ 1 := (fun x v => Host.reduce IntOp.andi x v reducesTo_S800000_S_d0 h_S_) main_v23 main_c_8
  let main_v25 : IVec S_ 1 := andi main_v18 main_v24
  main_v25

def fn {F : FTy → Type} [FloatOps F] (main_arg0 : FVec F S100000x128 .f32) (main_arg1 : IVec S800000 32) (main_arg2 : IVec S800000 32) (main_arg3 : FVec F S128x128 .f32) (main_arg4 : FVec F S128 .f32) (main_arg5 : FVec F S128x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg1 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x1 : Shape := ⟨2, ![128, 1]⟩
abbrev S_ : Shape := ⟨0, ![]⟩
abbrev S100000 : Shape := ⟨1, ![100000]⟩
abbrev S800000x1 : Shape := ⟨2, ![800000, 1]⟩
abbrev S50000 : Shape := ⟨1, ![50000]⟩
abbrev S100000x1 : Shape := ⟨2, ![100000, 1]⟩
abbrev S10000x128 : Shape := ⟨2, ![10000, 128]⟩
abbrev S10000x1 : Shape := ⟨2, ![10000, 1]⟩
abbrev S1 : Shape := ⟨1, ![1]⟩
abbrev S1x1 : Shape := ⟨2, ![1, 1]⟩
abbrev S800000x128 : Shape := ⟨2, ![800000, 128]⟩
abbrev S50000x128 : Shape := ⟨2, ![50000, 128]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩

abbrev nBuf : Space → Nat
  | .hbm => 58
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S100000, .f32⟩
  | .hbm, ⟨10, _⟩ => ⟨S800000x1, .i32⟩
  | .hbm, ⟨11, _⟩ => ⟨S100000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S1, .i32⟩
  | .hbm, ⟨31, _⟩ => ⟨S_, .i32⟩
  | .hbm, ⟨32, _⟩ => ⟨S800000x1, .i32⟩
  | .hbm, ⟨33, _⟩ => ⟨S800000x1, .i1⟩
  | .hbm, ⟨34, _⟩ => ⟨S1x1, .i32⟩
  | .hbm, ⟨35, _⟩ => ⟨S800000x1, .i32⟩
  | .hbm, ⟨36, _⟩ => ⟨S800000x1, .i1⟩
  | .hbm, ⟨37, _⟩ => ⟨S800000x1, .i1⟩
  | .hbm, ⟨38, _⟩ => ⟨S_, .i1⟩
  | .hbm, ⟨39, _⟩ => ⟨S800000, .i1⟩
  | .hbm, ⟨40, _⟩ => ⟨S800000x128, .f32⟩
  | .hbm, ⟨41, _⟩ => ⟨S800000x128, .i1⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S1x128, .f32⟩
  | .hbm, ⟨55, _⟩ => ⟨S1x128, .f32⟩
  | .hbm, ⟨56, _⟩ => ⟨S50000x128, .f32⟩
  | .hbm, ⟨57, _⟩ => ⟨S50000x1, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v12 : Ref sig .tc := ⟨.hbm, 44, rfl⟩
abbrev main_cst_3 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst_4 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22_0 : Ref sig .tc := ⟨.hbm, 56, rfl⟩
abbrev main_v22_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S50000 : S_.BroadcastsInDim S50000 (![] : Fin 0 → Fin S50000.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S128x1_S1x128 : S128x1.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  scatter_S100000_S800000x1_S800000_n_0_0_1_wf : ScatterDims.WF S100000 S800000x1 S800000 [] [0] [0] 1
  scatter_S50000_S800000x1_S800000_n_0_0_1_wf : ScatterDims.WF S50000 S800000x1 S800000 [] [0] [0] 1
  gather_S100000x128_S800000x1_S800000x128_1_0_n_n_0_1_1128_wf : GatherDims.WF S100000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S50000x1.size a
  hwx1_6 : ∀ i : grid1.Coords, EltTy.bits .f32 = 32 ∨ (Rect.block (s := S50000x1) S5000x1.size (cc1_transform_6 i) (hinb1_6 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v22_1) S5000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x1 : Shape := ⟨2, ![128, 1]⟩
abbrev S_ : Shape := ⟨0, ![]⟩
abbrev S100000 : Shape := ⟨1, ![100000]⟩
abbrev S800000x1 : Shape := ⟨2, ![800000, 1]⟩
abbrev S50000 : Shape := ⟨1, ![50000]⟩
abbrev S100000x1 : Shape := ⟨2, ![100000, 1]⟩
abbrev S800000x128 : Shape := ⟨2, ![800000, 128]⟩
abbrev S50000x128 : Shape := ⟨2, ![50000, 128]⟩
abbrev S50000x1 : Shape := ⟨2, ![50000, 1]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S100000, .f32⟩
  | .hbm, ⟨10, _⟩ => ⟨S800000x1, .i32⟩
  | .hbm, ⟨11, _⟩ => ⟨S100000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S100000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S50000x1, .f32⟩
  | .hbm, ⟨48, _⟩ => ⟨S50000x1, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S_, .f32⟩
  | .hbm, ⟨54, _⟩ => ⟨S50000x1, .f32⟩
  | .hbm, ⟨55, _⟩ => ⟨S50000x1, .f32⟩
  | .hbm, ⟨56, _⟩ => ⟨S50000x128, .f32⟩
  | .hbm, ⟨57, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S50000 : S_.BroadcastsInDim S50000 (![] : Fin 0 → Fin S50000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x1 : S_.BroadcastsInDim S50000x1 (![] : Fin 0 → Fin S50000x1.rank)
  scatter_S100000_S800000x1_S800000_n_0_0_1_wf : ScatterDims.WF S100000 S800000x1 S800000 [] [0] [0] 1
  scatter_S50000_S800000x1_S800000_n_0_0_1_wf : ScatterDims.WF S50000 S800000x1 S800000 [] [0] [0] 1
  gather_S100000x128_S800000x1_S800000x128_1_0_n_n_0_1_1128_wf : GatherDims.WF S100000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Region0Value.lean ====
/-
  Region 0 (the row-scaling kernel) read as a value: whatever the buffers hold when the region is entered, its
  result array ends holding, at row `r` and lane `j`, the table's entry `(r, j)` times the factor column's entry
  `(r, 0)`. Each of the ten grid points loads rows `10000 t … 10000 t + 9999` of the table and of the column,
  multiplies lane by lane with the column broadcast along the lanes, and writes the product back to the same rows;
  the ten row blocks tile the array.
-/
import proofs.«420665_j37503654429371_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.ScaleRows

open Cert.KernelIdeal Cert.KernelIdeal.Gen

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- Rows scaled by a column of factors: entry `(r, j)` of the table times entry `(r, 0)` of the column. -/
def scaled (h : S100000x128.Idx → Elt F .f32) (s : S100000x1.Idx → Elt F .f32) : S100000x128.Idx → Elt F .f32 :=
  fun i => FloatOps.mulf (h i) (s (ix2 (i 0) 0))

/-- The body's product at an entry of the block: the table block's entry times the column block's entry of that row. -/
theorem product_apply (x0 : Vec F S10000x128 .f32) (x1 : Vec F S10000x1 .f32) (j : S10000x128.Idx) :
    k0_pay1 x0 x1 j = FloatOps.mulf (x0 j) (x1 (ix2 (j 0) 0)) := by
  unfold k0_pay1
  show FloatOps.mulf (x0 j) (broadcastTo S10000x128 (shapeCast S10000x1 x1 shapeCasts_S10000x1_S10000x1) broadcasts_S10000x1_S10000x128 j) = _
  rw [shapeCast_self]
  refine congrArg (FloatOps.mulf (x0 j)) ?_
  exact broadcastTo_apply x1 _ j (ix2 (j 0) 0) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])

/-- The three windows move together: at point `t` each is on row block `t`, lane block 0. -/
theorem blocks_at : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The table window's block at point `t` is rows `10000 t … 10000 t + 9999` of the table. -/
theorem table_block_apply (c : Dev nD) (t : Fin cfg0.N) (y : S10000x128.Idx) (k : S100000x128.Idx)
    (hk0 : (k 0).val = 10000 * t.val + (y 0).val) (hk1 : (k 1).val = (y 1).val) :
    (iblk0 V c 0 t : Vec F S10000x128 .f32) y = (V c main_arg0 : S100000x128.Idx → Elt F .f32) k := by
  obtain ⟨e0, e1, -, -, -, -⟩ := blocks_at t
  unfold iblk0
  rw [View.read_apply]
  show V c main_arg0 _ = V c main_arg0 _
  congr 1
  funext a
  apply Fin.ext
  match a with
  | ⟨0, _⟩ => show win0_0.index t 0 * 10000 + 1 * (y 0).val = (k 0).val; rw [e0, hk0]; omega
  | ⟨1, _⟩ => show win0_0.index t 1 * 128 + 1 * (y 1).val = (k 1).val; rw [e1, hk1]; omega

/-- The factor window's block at point `t` is rows `10000 t … 10000 t + 9999` of the factor column. -/
theorem factor_block_apply (c : Dev nD) (t : Fin cfg0.N) (y : S10000x1.Idx) (k : S100000x1.Idx)
    (hk0 : (k 0).val = 10000 * t.val + (y 0).val) :
    (iblk0 V c 1 t : Vec F S10000x1 .f32) y = (V c main_v10 : S100000x1.Idx → Elt F .f32) k := by
  obtain ⟨-, -, e2, e3, -, -⟩ := blocks_at t
  have hy1 : (y 1).val = 0 := by have := (y 1).isLt; simp at this; omega
  have hk1 : (k 1).val = 0 := by have := (k 1).isLt; simp at this; omega
  unfold iblk0
  rw [View.read_apply]
  show V c main_v10 _ = V c main_v10 _
  congr 1
  funext a
  apply Fin.ext
  match a with
  | ⟨0, _⟩ => show win0_1.index t 0 * 10000 + 1 * (y 0).val = (k 0).val; rw [e2, hk0]; omega
  | ⟨1, _⟩ => show win0_1.index t 1 * 1 + 1 * (y 1).val = (k 1).val; rw [e3, hk1, hy1]

/-- What point `t` writes back is block `t` of the scaled table. -/
theorem flushed_eq (c : Dev nD) (t : Fin cfg0.N) :
    (dat0 V c).flushed 2 t = ((cfg0.win 2).blk t).view.read (Elt F) (scaled (V c main_arg0) (V c main_v10)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S10000x1) origin2]
  obtain ⟨-, -, -, -, e4, e5⟩ := blocks_at t
  funext j
  show k0_pay1 (iblk0 V c 0 t) (iblk0 V c 1 t) j = scaled (V c main_arg0) (V c main_v10) (((cfg0.win 2).blk t).view.emb j)
  refine (product_apply (iblk0 V c 0 t) (iblk0 V c 1 t) j).trans ?_
  have hE0 : ((((cfg0.win 2).blk t).view.emb j) 0).val = 10000 * t.val + (j 0).val := by
    show win0_2.index t (0 : Fin 2) * 10000 + 1 * (j 0).val = _; omega
  have hE1 : ((((cfg0.win 2).blk t).view.emb j) 1).val = (j 1).val := by
    show win0_2.index t (1 : Fin 2) * 128 + 1 * (j 1).val = _; omega
  unfold scaled
  refine congrArg₂ FloatOps.mulf ?_ ?_
  · exact table_block_apply V c t j _ hE0 hE1
  · exact factor_block_apply V c t _ _ hE0

/-- An index of the array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v11).slice (win0_2.rect t)).set ↔ _
  rw [View.set_slice_whole, Rect.mem_set_unit]
  exact Iff.rfl

/-- Every row block is some point's. -/
theorem block_onto : ∀ q : Fin 10, ∃ t : Fin cfg0.N, win0_2.index t = ![q.val, 0] :=
  (by decide +kernel : ∀ q : Fin 10, ∃ t : Fin grid0.N, win0_2.index t = ![q.val, 0])

/-- The ten row blocks cover the array: row `r` is in block `r / 10000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The region's result array after the last point: the table scaled row by row. -/
theorem final (c : Dev nD) : (dat0 V c).arrAt 2 cfg0.N = scaled (V c main_arg0) (V c main_v10) :=
  (dat0 V c).arrAt_eq_of_cover 2 (scaled (V c main_arg0) (V c main_v10)) (fun t _ => flushed_eq V c t) covered

end Cert.KernelIdeal.ScaleRows

end
-- ==== Proof.Region1Body.lean ====
/-
  Region 1 (the finalize kernel) read as a value at the ideal instance. Whatever the buffers hold when the region is
  entered — the aggregated features `agg` [50000, 128], the column of factors `s` [50000, 1], the weight matrix
  `W` [128, 128], the bias row [1, 128] and the attention row [1, 128] — its two result arrays end holding

      conv[r, j]  = (∑ₖ (agg[r, k] · s[r, 0]) · W[k, j]) + bias[0, j]
      gate[r, 0]  = logistic (∑ₖ conv[r, k] · attn[0, k])
      gated[r, j] = conv[r, j] · gate[r, 0].

  Each of the ten grid points works on rows `5000 t … 5000 t + 4999`: the two row-blocked inputs move with the point,
  the three small inputs are whole, and the two outputs' row blocks tile their arrays. The changes of float format
  around the matrix product are the identity at this instance, and the product into a zero accumulator is the plain
  sum over the contracted axis.
-/
import proofs.«420665_j37503654429371_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Finalize

open Cert.KernelIdeal Cert.KernelIdeal.Gen

theorem origin2 : (![0, 0] : Fin 2 → Nat) = fun _ => 0 := funext fun a => by fin_cases a <;> rfl

/-! ## The three functions of the arrays -/

/-- The graph convolution's linear layer on the rescaled aggregate, with its bias. -/
def conv (agg : FVec Ideal S50000x128 .f32) (s : FVec Ideal S50000x1 .f32) (W : FVec Ideal S128x128 .f32)
    (brow : FVec Ideal S1x128 .f32) : FVec Ideal S50000x128 .f32 :=
  fun i => (∑ k : Fin 128, (agg (ix2 (i 0) k) * s (ix2 (i 0) 0)) * W (ix2 k (i 1))) + brow (ix2 0 (i 1))

/-- The attention gate of a row: the logistic function of the row's inner product with the attention row. -/
def gate (agg : FVec Ideal S50000x128 .f32) (s : FVec Ideal S50000x1 .f32) (W : FVec Ideal S128x128 .f32)
    (brow wrow : FVec Ideal S1x128 .f32) : FVec Ideal S50000x1 .f32 :=
  fun i => Ideal.logistic (∑ k : Fin 128, conv agg s W brow (ix2 (i 0) k) * wrow (ix2 0 k))

/-- The gated output: every entry of a row times the row's gate. -/
def gated (agg : FVec Ideal S50000x128 .f32) (s : FVec Ideal S50000x1 .f32) (W : FVec Ideal S128x128 .f32)
    (brow wrow : FVec Ideal S1x128 .f32) : FVec Ideal S50000x128 .f32 :=
  fun i => conv agg s W brow i * gate agg s W brow wrow (ix2 (i 0) 0)

/-! ## The body's three values at an entry of a block -/

/-- The matrix product's dimension record. -/
abbrev D := dot_S5000x128_S128x128_S5000x128_1_0_0_1_n_n

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The linear layer at an entry of the block: the row of the rescaled block against the column of the weights, plus
    the bias of that column. -/
theorem conv_block (x0 : FVec Ideal S5000x128 .f32) (x2 : FVec Ideal S5000x1 .f32) (x7 : FVec Ideal S128x128 .f32)
    (x10 : FVec Ideal S1x128 .f32) (j : S5000x128.Idx) :
    k1_pay1 (F := Ideal) x0 x2 x7 x10 j = (∑ k : Fin 128, (x0 (ix2 (j 0) k) * x2 (ix2 (j 0) 0)) * x7 (ix2 k (j 1))) + x10 (ix2 0 (j 1)) := by
  unfold k1_pay1
  show (FloatOps.matmul D none (truncf .bf16 (mulf (shapeCast S5000x128 x0 shapeCasts_S5000x128_S5000x128) (broadcastTo S5000x128 (shapeCast S5000x1 x2 shapeCasts_S5000x1_S5000x1) broadcasts_S5000x1_S5000x128)) bitsLt_bf16_f32) (truncf .bf16 x7 bitsLt_bf16_f32) (constant S5000x128 .f32 0x00000000#32)) j
      + (broadcastTo S5000x128 (shapeCast S1x128 x10 shapeCasts_S1x128_S1x128) broadcasts_S1x128_S5000x128) j = _
  rw [shapeCast_self, shapeCast_self, shapeCast_self]
  refine congrArg₂ (· + ·) ?_ ?_
  · refine (Ideal.matmul_constant_zero_apply D none _ _ j).trans ?_
    rw [← Equiv.sum_comp (contrEquiv1 D 128 rfl rfl).symm]
    refine Finset.sum_congr rfl fun k _ => ?_
    have hk := contrEquiv1_symm_val D 128 rfl rfl k
    have el : D.lhsIdx j ((contrEquiv1 D 128 rfl rfl).symm k) = ix2 (j 0) k := funext fun a => Fin.ext (by
      match a with
      | ⟨0, _⟩ => exact lhs_axis0 _ _
      | ⟨1, _⟩ => exact (lhs_axis1 _ _).trans hk)
    have er : D.rhsIdx j ((contrEquiv1 D 128 rfl rfl).symm k) = ix2 k (j 1) := funext fun a => Fin.ext (by
      match a with
      | ⟨0, _⟩ => exact (rhs_axis0 _ _).trans hk
      | ⟨1, _⟩ => exact rhs_axis1 _ _)
    rw [el, er]
    show (x0 (ix2 (j 0) k) * broadcastTo S5000x128 x2 broadcasts_S5000x1_S5000x128 (ix2 (j 0) k)) * x7 (ix2 k (j 1)) = _
    rw [broadcastTo_apply x2 broadcasts_S5000x1_S5000x128 (ix2 (j 0) k) (ix2 (j 0) 0) (fun a => match a with
      | ⟨0, _⟩ => by show (j 0).val = if (5000 : Nat) = 1 then 0 else (j 0).val; rw [if_neg (by decide)]
      | ⟨1, _⟩ => by show 0 = if (1 : Nat) = 1 then 0 else k.val; rw [if_pos rfl])]
  · exact broadcastTo_apply x10 broadcasts_S1x128_S5000x128 j (ix2 0 (j 1)) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])

/-- The lane reduction puts lane `k` back beside row `p`. -/
theorem lift_row (p : Fin 5000) (k : Fin (S5000x128.size 1)) :
    reduces_S5000x128_S5000.lift (ix1 p) k = ix2 p (⟨k.val, k.isLt⟩ : Fin 128) := by
  funext c; apply Fin.ext
  fin_cases c <;> rfl

/-- The gate at a row of the block: the logistic function of the row's inner product with the attention row. -/
theorem gate_block (x0 : FVec Ideal S5000x128 .f32) (x2 : FVec Ideal S5000x1 .f32) (x7 : FVec Ideal S128x128 .f32)
    (x10 x14 : FVec Ideal S1x128 .f32) (j : S5000x1.Idx) :
    k1_pay2 (F := Ideal) x0 x2 x7 x10 x14 j = Ideal.logistic (∑ k : Fin 128, k1_pay1 (F := Ideal) x0 x2 x7 x10 (ix2 (j 0) k) * x14 (ix2 0 k)) := by
  have hj1 : (j 1).val = 0 := by have := (j 1).isLt; simp at this; omega
  unfold k1_pay2
  show Ideal.logistic (shapeCast S5000x1 (multiReduction .add [1] S5000 (mulf (k1_pay1 (F := Ideal) x0 x2 x7 x10) (broadcastTo S5000x128 (shapeCast S1x128 x14 shapeCasts_S1x128_S1x128) broadcasts_S1x128_S5000x128)) 0x00000000#32 reduces_S5000x128_S5000 (.inl rfl) rfl) shapeCasts_S5000_S5000x1 j) = _
  rw [shapeCast_self]
  refine congrArg Ideal.logistic ?_
  refine (shapeCast_apply _ shapeCasts_S5000_S5000x1 j (ix1 (j 0)) ?_).trans ?_
  · rw [Shape.rowMajor_val_one, Shape.rowMajor_val_two]
    show (j 0).val = (j 0).val * 1 + (j 1).val
    omega
  refine (Ideal.multiReduction_add_single _ 0x00000000#32 reduces_S5000x128_S5000 (.inl rfl) rfl (ix1 (j 0))).trans ?_
  show ∑ k : Fin 128, _ = ∑ k : Fin 128, _
  refine Finset.sum_congr rfl fun k _ => ?_
  rw [lift_row (j 0) k]
  show k1_pay1 (F := Ideal) x0 x2 x7 x10 (ix2 (j 0) k) * broadcastTo S5000x128 x14 broadcasts_S1x128_S5000x128 (ix2 (j 0) k) = _
  rw [broadcastTo_apply x14 broadcasts_S1x128_S5000x128 (ix2 (j 0) k) (ix2 0 k) (fun a => match a with
      | ⟨0, _⟩ => by show 0 = if (1 : Nat) = 1 then 0 else (j 0).val; rw [if_pos rfl]
      | ⟨1, _⟩ => by show k.val = if (128 : Nat) = 1 then 0 else k.val; rw [if_neg (by decide)])]

/-- The gated value at an entry of the block: the linear layer's entry times its row's gate. -/
theorem gated_block (x0 : FVec Ideal S5000x128 .f32) (x2 : FVec Ideal S5000x1 .f32) (x7 : FVec Ideal S128x128 .f32)
    (x10 x14 : FVec Ideal S1x128 .f32) (j : S5000x128.Idx) :
    k1_pay3 (F := Ideal) x0 x2 x7 x10 x14 j = k1_pay1 (F := Ideal) x0 x2 x7 x10 j * k1_pay2 (F := Ideal) x0 x2 x7 x10 x14 (ix2 (j 0) 0) := by
  unfold k1_pay3
  show k1_pay1 (F := Ideal) x0 x2 x7 x10 j * broadcastTo S5000x128 (k1_pay2 (F := Ideal) x0 x2 x7 x10 x14) broadcasts_S5000x1_S5000x128 j = _
  rw [broadcastTo_apply (k1_pay2 (F := Ideal) x0 x2 x7 x10 x14) broadcasts_S5000x1_S5000x128 j (ix2 (j 0) 0) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl])]

end Cert.KernelIdeal.Finalize

end
-- ==== Proof.RefBridge.lean ====
/-
  The reference program read against the kernel's three functions, at the ideal instance. Index by index:

    * a vector reshaped `[n] → [n, 1]` and then read at row `r` is the vector at `r`, which is also what the reference's
      two broadcasts `[n] → [n, 1] → [n, 128]` read at `(r, j)`; so the kernel's row scaling is the reference's product;
    * the reference's `dot_general` of the rescaled aggregate with the weights, plus the bias broadcast along the
      rows, is the kernel's linear layer: the same sum over the contracted axis, term by term;
    * the reference's `1 / (1 + exp (-x))` of the inner product with the attention vector is the kernel's logistic
      gate: the same expression, the constant word of one read as the number one; the attention vector reshaped
      `[128, 1] → [1, 128]` read at `(0, k)` is the vector at `(k, 0)`;
    * and the gated output is the product of the two, the gate broadcast along the lanes.
-/
import proofs.«420665_j37503654429371_1_alg».proof.Proof.Gen.ReferenceIdeal.Read
import proofs.«420665_j37503654429371_1_alg».proof.Proof.Region0Value
import proofs.«420665_j37503654429371_1_alg».proof.Proof.Region1Body
import Idealize.ShloMosaic.Lib.IdealHost

set_option maxRecDepth 16384

noncomputable section

open Idealize.ShloMosaic Idealize.ShloMosaic.ValueIdx

namespace Cert.Bridge

open Cert.ReferenceIdeal Cert.ReferenceIdeal.Read Cert.ReferenceIdeal.Facts₀

/-! ## Reshapes read at an index -/

/-- A vector reshaped to a column, read at row `r`: the vector at `r`. -/
theorem column_apply {α : Type} {n : Nat} (r : (⟨1, ![n]⟩ : Shape).Idx → α)
    (h : (⟨1, ![n]⟩ : Shape).ShapeCasts ⟨2, ![n, 1]⟩) (j : (⟨2, ![n, 1]⟩ : Shape).Idx) :
    shapeCast ⟨2, ![n, 1]⟩ r h j = r (ix1 (j 0)) := by
  have hj1 : (j 1).val = 0 := by have := (j 1).isLt; simp at this; omega
  refine shapeCast_apply r h j (ix1 (j 0)) ?_
  rw [Shape.rowMajor_val_one, Shape.rowMajor_val_two]
  show (j 0).val = (j 0).val * 1 + (j 1).val
  omega

/-- A vector reshaped to a row, read at lane `k`: the vector at `k`. -/
theorem row_apply {α : Type} {n : Nat} (x : (⟨1, ![n]⟩ : Shape).Idx → α)
    (h : (⟨1, ![n]⟩ : Shape).ShapeCasts ⟨2, ![1, n]⟩) (j : (⟨2, ![1, n]⟩ : Shape).Idx) :
    shapeCast ⟨2, ![1, n]⟩ x h j = x (ix1 (j 1)) := by
  have hj0 : (j 0).val = 0 := by have := (j 0).isLt; simp at this; omega
  refine shapeCast_apply x h j (ix1 (j 1)) ?_
  rw [Shape.rowMajor_val_one, Shape.rowMajor_val_two]
  show (j 1).val = (j 0).val * n + (j 1).val
  rw [hj0]; omega

/-- A column reshaped to a row, read at lane `k`: the column at row `k`. -/
theorem column_as_row_apply {α : Type} {n : Nat} (x : (⟨2, ![n, 1]⟩ : Shape).Idx → α)
    (h : (⟨2, ![n, 1]⟩ : Shape).ShapeCasts ⟨2, ![1, n]⟩) (j : (⟨2, ![1, n]⟩ : Shape).Idx) :
    shapeCast ⟨2, ![1, n]⟩ x h j = x (ix2 (j 1) 0) := by
  have hj0 : (j 0).val = 0 := by have := (j 0).isLt; simp at this; omega
  refine shapeCast_apply x h j (ix2 (j 1) 0) ?_
  rw [Shape.rowMajor_val_two, Shape.rowMajor_val_two]
  show (j 1).val * 1 + 0 = (j 0).val * n + (j 1).val
  rw [hj0]; omega

/-! ## Region 0: the kernel's row scaling is the reference's product -/

theorem scaled_eq {F : FTy → Type} [FloatOps F] [Cert.KernelIdeal.Facts] [Cert.ReferenceIdeal.Facts]
    (h : FVec F S100000x128 .f32) (r : FVec F S100000 .f32) :
    Cert.KernelIdeal.ScaleRows.scaled h
        (shapeCast Cert.KernelIdeal.S100000x1 r Cert.KernelIdeal.Facts₀.shapeCasts_S100000_S100000x1)
      = mulf h (broadcastInDim S100000x128 ![0, 1] bcast_S100000x1_S100000x128_0_1
          (broadcastInDim S100000x1 ![0] bcast_S100000_S100000x1_0 r)) := by
  funext i
  unfold Cert.KernelIdeal.ScaleRows.scaled
  show FloatOps.mulf (h i) _ = FloatOps.mulf (h i) _
  refine congrArg (FloatOps.mulf (h i)) ?_
  refine (column_apply r _ _).trans ?_
  refine ((broadcastInDim_apply _ bcast_S100000x1_S100000x128_0_1 _ i (ix2 (i 0) 0) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_).symm
  exact broadcastInDim_apply _ bcast_S100000_S100000x1_0 r (ix2 (i 0) 0) (ix1 (i 0)) (fun a => match a with
    | ⟨0, _⟩ => by show (i 0).val = if (100000 : Nat) = 1 then 0 else (i 0).val; rw [if_neg (by decide)])

/-! ## Region 1: the reference's tail is the kernel's three functions -/

section Tail

variable [Cert.KernelIdeal.Facts] [Cert.ReferenceIdeal.Facts]

/-- The reference's linear layer (scale, `dot_general`, bias) is the kernel's `conv` of the reference's aggregate and
    factor vector. -/
theorem conv_eq (x0 : FVec Ideal S100000x128 .f32) (x1 x2 : IVec S800000 32) (x3 : FVec Ideal S128x128 .f32)
    (x4 : FVec Ideal S128 .f32) :
    val_main_v32 (F := Ideal) x0 x1 x2 x3 x4
      = Cert.KernelIdeal.Finalize.conv (val_main_v22 (F := Ideal) x0 x1 x2)
          (shapeCast Cert.KernelIdeal.S50000x1 (val_main_v25 (F := Ideal) x2) Cert.KernelIdeal.Facts₀.shapeCasts_S50000_S50000x1)
          x3 (shapeCast Cert.KernelIdeal.S1x128 x4 Cert.KernelIdeal.Facts₀.shapeCasts_S128_S1x128) := by
  funext i
  obtain ⟨p, q, rfl⟩ : ∃ (p : Fin 50000) (q : Fin 128), i = ix2 p q := ⟨i 0, i 1, eq_ix2 i⟩
  rw [val_main_v32_apply, val_main_v29_apply, val_main_v31_apply, val_main_v30_apply]
  unfold Cert.KernelIdeal.Finalize.conv
  refine congrArg₂ (· + ·) (Finset.sum_congr rfl fun k _ => ?_) ?_
  · have e1 : lidx_main_v29 (ix2 p q) k = ix2 p k := funext fun a => by match a with | ⟨0, _⟩ => rfl | ⟨1, _⟩ => rfl
    have e2 : ridx_main_v29 (ix2 p q) k = ix2 k q := funext fun a => by match a with | ⟨0, _⟩ => rfl | ⟨1, _⟩ => rfl
    rw [e1, e2, val_main_v28_apply, val_main_v27_apply, val_main_v26_apply]
    have e3 : idx_main_v26 (idx_main_v27 (ix2 p k)) = ix1 p := funext fun a => by match a with | ⟨0, _⟩ => rfl
    rw [e3]
    refine congrArg₂ (· * ·) (congrArg₂ (· * ·) rfl ?_) rfl
    exact (column_apply (n := 50000) (val_main_v25 (F := Ideal) x2) Cert.KernelIdeal.Facts₀.shapeCasts_S50000_S50000x1 (ix2 p 0)).symm
  · have e4 : idx_main_v30 (idx_main_v31 (ix2 p q)) = ix1 q := funext fun a => by match a with | ⟨0, _⟩ => rfl
    rw [e4]
    exact (row_apply (n := 128) x4 Cert.KernelIdeal.Facts₀.shapeCasts_S128_S1x128 (ix2 0 q)).symm

/-- The reference's `1 / (1 + exp (-(out · w)))` is the kernel's gate. -/
theorem gate_eq (x0 : FVec Ideal S100000x128 .f32) (x1 x2 : IVec S800000 32) (x3 : FVec Ideal S128x128 .f32)
    (x4 : FVec Ideal S128 .f32) (x5 : FVec Ideal S128x1 .f32) :
    val_main_v39 (F := Ideal) x0 x1 x2 x3 x4 x5
      = Cert.KernelIdeal.Finalize.gate (val_main_v22 (F := Ideal) x0 x1 x2)
          (shapeCast Cert.KernelIdeal.S50000x1 (val_main_v25 (F := Ideal) x2) Cert.KernelIdeal.Facts₀.shapeCasts_S50000_S50000x1)
          x3 (shapeCast Cert.KernelIdeal.S1x128 x4 Cert.KernelIdeal.Facts₀.shapeCasts_S128_S1x128)
          (shapeCast Cert.KernelIdeal.S1x128 x5 Cert.KernelIdeal.Facts₀.shapeCasts_S128x1_S1x128) := by
  funext i
  obtain ⟨p, z, rfl⟩ : ∃ (p : Fin 50000) (z : Fin 1), i = ix2 p z := ⟨i 0, i 1, eq_ix2 i⟩
  obtain rfl : z = 0 := Subsingleton.elim _ _
  rw [val_main_v39_apply, val_main_v38_apply, val_main_cst_7_apply, val_main_v37_apply, val_main_v36_apply,
    val_main_cst_6_apply, val_main_v35_apply, val_main_v34_apply, val_main_v33_apply]
  rw [Ideal.hostDivf_def, Ideal.addf_def, Ideal.hostUnary_exp_def, Ideal.hostNegf_def, Ideal.negf_def, Ideal.ofBits_def,
    Ideal.ofBits_one_f32]
  unfold Cert.KernelIdeal.Finalize.gate Ideal.logistic
  refine congrArg (fun s => Ideal.div 1 (1 + Ideal.exp (-s))) (Finset.sum_congr rfl fun k _ => ?_)
  have e1 : lidx_main_v33 (ix2 p 0) k = ix2 p k := funext fun a => by match a with | ⟨0, _⟩ => rfl | ⟨1, _⟩ => rfl
  have e2 : ridx_main_v33 (ix2 p 0) k = ix2 k 0 := funext fun a => by match a with | ⟨0, _⟩ => rfl | ⟨1, _⟩ => rfl
  rw [e1, e2, conv_eq]
  refine congrArg₂ (· * ·) rfl ?_
  exact (column_as_row_apply (n := 128) x5 Cert.KernelIdeal.Facts₀.shapeCasts_S128x1_S1x128 (ix2 0 k)).symm

/-- The reference's gated output is the kernel's. -/
theorem gated_eq (x0 : FVec Ideal S100000x128 .f32) (x1 x2 : IVec S800000 32) (x3 : FVec Ideal S128x128 .f32)
    (x4 : FVec Ideal S128 .f32) (x5 : FVec Ideal S128x1 .f32) :
    val_main_v41 (F := Ideal) x0 x1 x2 x3 x4 x5
      = Cert.KernelIdeal.Finalize.gated (val_main_v22 (F := Ideal) x0 x1 x2)
          (shapeCast Cert.KernelIdeal.S50000x1 (val_main_v25 (F := Ideal) x2) Cert.KernelIdeal.Facts₀.shapeCasts_S50000_S50000x1)
          x3 (shapeCast Cert.KernelIdeal.S1x128 x4 Cert.KernelIdeal.Facts₀.shapeCasts_S128_S1x128)
          (shapeCast Cert.KernelIdeal.S1x128 x5 Cert.KernelIdeal.Facts₀.shapeCasts_S128x1_S1x128) := by
  funext i
  obtain ⟨p, q, rfl⟩ : ∃ (p : Fin 50000) (q : Fin 128), i = ix2 p q := ⟨i 0, i 1, eq_ix2 i⟩
  rw [val_main_v41_apply, val_main_v40_apply]
  have e1 : idx_main_v40 (ix2 p q) = ix2 p 0 := funext fun a => by match a with | ⟨0, _⟩ => rfl | ⟨1, _⟩ => rfl
  rw [e1, conv_eq, gate_eq]
  rfl

end Tail

end Cert.Bridge

end
-- ==== Proof.Region1Value.lean ====
/-
  Region 1's two result arrays after its ten grid points: each point writes back rows `5000 t … 5000 t + 4999` of
  the gated output and of the gate, computed from the same rows of the aggregate and of the factor column and from
  the whole weight matrix, bias row and attention row; the row blocks tile both arrays.
-/
import proofs.«420665_j37503654429371_1_alg».proof.Proof.Region1Body

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Finalize

open Cert.KernelIdeal Cert.KernelIdeal.Gen

variable (V : (c : Dev nD) → (b : Ref sig .tc) → Buf (Elt Ideal) ((c : Thread nD τ).loc b))

/-- Where the seven windows are at point `t`: the row-blocked ones on row block `t`, the small ones whole. -/
theorem blocks_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## Each input block as entries of its array -/

theorem agg_block_apply (c : Dev nD) (t : Fin cfg1.N) (y : S5000x128.Idx) (k : S50000x128.Idx)
    (hk0 : (k 0).val = 5000 * t.val + (y 0).val) (hk1 : (k 1).val = (y 1).val) :
    (iblk1 V c 0 t : FVec Ideal S5000x128 .f32) y = (V c main_v15 : FVec Ideal S50000x128 .f32) k := by
  obtain ⟨e0, e1, -⟩ := blocks_at t
  unfold iblk1
  rw [View.read_apply]
  show V c main_v15 _ = V c main_v15 _
  congr 1
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

theorem factor_block_apply (c : Dev nD) (t : Fin cfg1.N) (y : S5000x1.Idx) (k : S50000x1.Idx)
    (hk0 : (k 0).val = 5000 * t.val + (y 0).val) :
    (iblk1 V c 1 t : FVec Ideal S5000x1 .f32) y = (V c main_v19 : FVec Ideal S50000x1 .f32) k := by
  obtain ⟨-, -, e2, e3, -⟩ := blocks_at t
  have hy1 : (y 1).val = 0 := by have := (y 1).isLt; simp at this; omega
  have hk1 : (k 1).val = 0 := by have := (k 1).isLt; simp at this; omega
  unfold iblk1
  rw [View.read_apply]
  show V c main_v19 _ = V c main_v19 _
  congr 1
  funext a
  apply Fin.ext
  match a with
  | ⟨0, _⟩ => show win1_1.index t 0 * 5000 + 1 * (y 0).val = (k 0).val; rw [e2, hk0]; omega
  | ⟨1, _⟩ => show win1_1.index t 1 * 1 + 1 * (y 1).val = (k 1).val; rw [e3, hk1, hy1]

theorem weight_block_apply (c : Dev nD) (t : Fin cfg1.N) (y k : S128x128.Idx)
    (hk0 : (k 0).val = (y 0).val) (hk1 : (k 1).val = (y 1).val) :
    (iblk1 V c 2 t : FVec Ideal S128x128 .f32) y = (V c main_arg3 : FVec Ideal S128x128 .f32) k := by
  obtain ⟨-, -, -, -, e4, e5, -⟩ := blocks_at t
  unfold iblk1
  rw [View.read_apply]
  show V c main_arg3 _ = V c main_arg3 _
  congr 1
  funext a
  apply Fin.ext
  match a with
  | ⟨0, _⟩ => show win1_2.index t 0 * 128 + 1 * (y 0).val = (k 0).val; rw [e4, hk0]; omega
  | ⟨1, _⟩ => show win1_2.index t 1 * 128 + 1 * (y 1).val = (k 1).val; rw [e5, hk1]; omega

theorem bias_block_apply (c : Dev nD) (t : Fin cfg1.N) (y k : S1x128.Idx) (hk1 : (k 1).val = (y 1).val) :
    (iblk1 V c 3 t : FVec Ideal S1x128 .f32) y = (V c main_v20 : FVec Ideal S1x128 .f32) k := by
  obtain ⟨-, -, -, -, -, -, e6, e7, -⟩ := blocks_at t
  have hy0 : (y 0).val = 0 := by have := (y 0).isLt; simp at this; omega
  have hk0 : (k 0).val = 0 := by have := (k 0).isLt; simp at this; omega
  unfold iblk1
  rw [View.read_apply]
  show V c main_v20 _ = V c main_v20 _
  congr 1
  funext a
  apply Fin.ext
  match a with
  | ⟨0, _⟩ => show win1_3.index t 0 * 1 + 1 * (y 0).val = (k 0).val; rw [e6, hk0, hy0]
  | ⟨1, _⟩ => show win1_3.index t 1 * 128 + 1 * (y 1).val = (k 1).val; rw [e7, hk1]; omega

theorem attn_block_apply (c : Dev nD) (t : Fin cfg1.N) (y k : S1x128.Idx) (hk1 : (k 1).val = (y 1).val) :
    (iblk1 V c 4 t : FVec Ideal S1x128 .f32) y = (V c main_v21 : FVec Ideal S1x128 .f32) k := by
  obtain ⟨-, -, -, -, -, -, -, -, e8, e9, -⟩ := blocks_at t
  have hy0 : (y 0).val = 0 := by have := (y 0).isLt; simp at this; omega
  have hk0 : (k 0).val = 0 := by have := (k 0).isLt; simp at this; omega
  unfold iblk1
  rw [View.read_apply]
  show V c main_v21 _ = V c main_v21 _
  congr 1
  funext a
  apply Fin.ext
  match a with
  | ⟨0, _⟩ => show win1_4.index t 0 * 1 + 1 * (y 0).val = (k 0).val; rw [e8, hk0, hy0]
  | ⟨1, _⟩ => show win1_4.index t 1 * 128 + 1 * (y 1).val = (k 1).val; rw [e9, hk1]; omega

/-! ## The body's values at point `t` are the arrays' functions at the block's rows -/

/-- The linear layer at entry `j` of point `t`'s block is the arrays' at row `5000 t + j₀`, column `j₁`. -/
theorem conv_at (c : Dev nD) (t : Fin cfg1.N) (j : S5000x128.Idx) (i : S50000x128.Idx)
    (h0 : (i 0).val = 5000 * t.val + (j 0).val) (h1 : (i 1).val = (j 1).val) :
    k1_pay1 (F := Ideal) (iblk1 V c 0 t) (iblk1 V c 1 t) (iblk1 V c 2 t) (iblk1 V c 3 t) j
      = conv (V c main_v15) (V c main_v19) (V c main_arg3) (V c main_v20) i := by
  refine (conv_block (iblk1 V c 0 t) (iblk1 V c 1 t) (iblk1 V c 2 t) (iblk1 V c 3 t) j).trans ?_
  unfold conv
  refine congrArg₂ (· + ·) (Finset.sum_congr rfl fun k _ => ?_) ?_
  · refine congrArg₂ (· * ·) (congrArg₂ (· * ·) ?_ ?_) ?_
    · exact agg_block_apply V c t _ _ h0 rfl
    · exact factor_block_apply V c t _ _ h0
    · exact weight_block_apply V c t _ _ rfl h1
  · exact bias_block_apply V c t _ _ h1

/-- The gate at row `j₀` of point `t`'s block is the arrays' at row `5000 t + j₀`. -/
theorem gate_at (c : Dev nD) (t : Fin cfg1.N) (j : S5000x1.Idx) (i : S50000x1.Idx)
    (h0 : (i 0).val = 5000 * t.val + (j 0).val) :
    k1_pay2 (F := Ideal) (iblk1 V c 0 t) (iblk1 V c 1 t) (iblk1 V c 2 t) (iblk1 V c 3 t) (iblk1 V c 4 t) j
      = gate (V c main_v15) (V c main_v19) (V c main_arg3) (V c main_v20) (V c main_v21) i := by
  refine (gate_block (iblk1 V c 0 t) (iblk1 V c 1 t) (iblk1 V c 2 t) (iblk1 V c 3 t) (iblk1 V c 4 t) j).trans ?_
  unfold gate
  refine congrArg Ideal.logistic (Finset.sum_congr rfl fun k _ => ?_)
  refine congrArg₂ (· * ·) ?_ ?_
  · exact conv_at V c t _ _ h0 rfl
  · exact attn_block_apply V c t _ _ rfl

/-- The gated value at entry `j` of point `t`'s block is the arrays' at row `5000 t + j₀`, column `j₁`. -/
theorem gated_at (c : Dev nD) (t : Fin cfg1.N) (j : S5000x128.Idx) (i : S50000x128.Idx)
    (h0 : (i 0).val = 5000 * t.val + (j 0).val) (h1 : (i 1).val = (j 1).val) :
    k1_pay3 (F := Ideal) (iblk1 V c 0 t) (iblk1 V c 1 t) (iblk1 V c 2 t) (iblk1 V c 3 t) (iblk1 V c 4 t) j
      = gated (V c main_v15) (V c main_v19) (V c main_arg3) (V c main_v20) (V c main_v21) i := by
  refine (gated_block (iblk1 V c 0 t) (iblk1 V c 1 t) (iblk1 V c 2 t) (iblk1 V c 3 t) (iblk1 V c 4 t) j).trans ?_
  unfold gated
  refine congrArg₂ (· * ·) ?_ ?_
  · exact conv_at V c t j i h0 h1
  · exact gate_at V c t _ _ h0

/-! ## The gated output (window 5) -/

theorem flushed5_eq (c : Dev nD) (t : Fin cfg1.N) :
    (dat1 V c).flushed 5 t = ((cfg1.win 5).blk t).view.read (Elt Ideal)
      (gated (V c main_v15) (V c main_v19) (V c main_arg3) (V c main_v20) (V c main_v21)) := by
  show (cfg1.win 5).cut (grid1.coords t) ((dat1 V c).after 5 t) = _
  rw [after1_5]
  unfold out1_5
  rw [View.canon_unit_zero origin2]
  simp only [View.ld_unit_zero (S := S5000x128) origin2, View.ld_unit_zero (S := S5000x1) origin2,
    View.ld_unit_zero (S := S128x128) origin2, View.ld_unit_zero (S := S1x128) origin2]
  obtain ⟨-, -, -, -, -, -, -, -, -, -, e10, e11, -⟩ := blocks_at t
  funext j
  show k1_pay3 (F := Ideal) (iblk1 V c 0 t) (iblk1 V c 1 t) (iblk1 V c 2 t) (iblk1 V c 3 t) (iblk1 V c 4 t) j
    = gated (V c main_v15) (V c main_v19) (V c main_arg3) (V c main_v20) (V c main_v21) (((cfg1.win 5).blk t).view.emb j)
  have hE0 : ((((cfg1.win 5).blk t).view.emb j) 0).val = 5000 * t.val + (j 0).val := by
    show win1_5.index t (0 : Fin 2) * 5000 + 1 * (j 0).val = _; omega
  have hE1 : ((((cfg1.win 5).blk t).view.emb j) 1).val = (j 1).val := by
    show win1_5.index t (1 : Fin 2) * 128 + 1 * (j 1).val = _; omega
  exact gated_at V c t j _ hE0 hE1

theorem mem_block5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v22_0).slice (win1_5.rect t)).set ↔ _
  rw [View.set_slice_whole, Rect.mem_set_unit]
  exact Iff.rfl

theorem block_onto5 : ∀ q : Fin 10, ∃ t : Fin cfg1.N, win1_5.index t = ![q.val, 0] :=
  (by decide +kernel : ∀ q : Fin 10, ∃ t : Fin grid1.N, win1_5.index t = ![q.val, 0])

theorem covered5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := block_onto5 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The gated output array after the last point. -/
theorem final5 (c : Dev nD) : (dat1 V c).arrAt 5 cfg1.N
    = gated (V c main_v15) (V c main_v19) (V c main_arg3) (V c main_v20) (V c main_v21) :=
  (dat1 V c).arrAt_eq_of_cover 5 (gated (V c main_v15) (V c main_v19) (V c main_arg3) (V c main_v20) (V c main_v21))
    (fun t _ => flushed5_eq V c t) covered5

/-! ## The gate (window 6) -/

theorem flushed6_eq (c : Dev nD) (t : Fin cfg1.N) :
    (dat1 V c).flushed 6 t = ((cfg1.win 6).blk t).view.read (Elt Ideal)
      (gate (V c main_v15) (V c main_v19) (V c main_arg3) (V c main_v20) (V c main_v21)) := by
  show (cfg1.win 6).cut (grid1.coords t) ((dat1 V c).after 6 t) = _
  rw [after1_6]
  unfold out1_6
  rw [View.canon_unit_zero origin2]
  simp only [View.ld_unit_zero (S := S5000x128) origin2, View.ld_unit_zero (S := S5000x1) origin2,
    View.ld_unit_zero (S := S128x128) origin2, View.ld_unit_zero (S := S1x128) origin2]
  obtain ⟨-, -, -, -, -, -, -, -, -, -, -, -, e12, e13⟩ := blocks_at t
  funext j
  show k1_pay2 (F := Ideal) (iblk1 V c 0 t) (iblk1 V c 1 t) (iblk1 V c 2 t) (iblk1 V c 3 t) (iblk1 V c 4 t) j
    = gate (V c main_v15) (V c main_v19) (V c main_arg3) (V c main_v20) (V c main_v21) (((cfg1.win 6).blk t).view.emb j)
  have hE0 : ((((cfg1.win 6).blk t).view.emb j) 0).val = 5000 * t.val + (j 0).val := by
    show win1_6.index t (0 : Fin 2) * 5000 + 1 * (j 0).val = _; omega
  exact gate_at V c t j _ hE0

theorem mem_block6 (t : Fin cfg1.N) (i : S50000x1.Idx) :
    i ∈ ((cfg1.win 6).blk t).view.set ↔ ∀ a : Fin 2, win1_6.index t a * S5000x1.size a ≤ (i a).val ∧ (i a).val < win1_6.index t a * S5000x1.size a + S5000x1.size a := by
  show i ∈ ((View.whole main_v22_1).slice (win1_6.rect t)).set ↔ _
  rw [View.set_slice_whole, Rect.mem_set_unit]
  exact Iff.rfl

theorem block_onto6 : ∀ q : Fin 10, ∃ t : Fin cfg1.N, win1_6.index t = ![q.val, 0] :=
  (by decide +kernel : ∀ q : Fin 10, ∃ t : Fin grid1.N, win1_6.index t = ![q.val, 0])

theorem covered6 (i : S50000x1.Idx) : ∃ t : Fin cfg1.N, (cfg1.win 6).flush t = true ∧ i ∈ ((cfg1.win 6).blk t).view.set := by
  have hi0 : (i 0).val < 50000 := (i 0).isLt
  have hi1 : (i 1).val = 0 := by have := (i 1).isLt; simp at this; omega
  obtain ⟨t, ht⟩ := block_onto6 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_block6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 1 ≤ (i 1).val ∧ (i 1).val < win1_6.index t (1 : Fin 2) * 1 + 1; omega

/-- The gate array after the last point. -/
theorem final6 (c : Dev nD) : (dat1 V c).arrAt 6 cfg1.N
    = gate (V c main_v15) (V c main_v19) (V c main_arg3) (V c main_v20) (V c main_v21) :=
  (dat1 V c).arrAt_eq_of_cover 6 (gate (V c main_v15) (V c main_v19) (V c main_arg3) (V c main_v20) (V c main_v21))
    (fun t _ => flushed6_eq V c t) covered6

end Cert.KernelIdeal.Finalize

end
-- ==== Proof.TakeRows.lean ====
/-
  Taking rows of a table by index, as the kernel's host code does it (negative indices wrapped once, the rows
  gathered, and a row whose wrapped index is outside `0 … 99999` replaced by the fill value), against a plain
  gather of the wrapped indices. Where every index is a row of the table — the certificate's precondition says so —
  the in-range test is true at every position, nothing is replaced, and the two agree.
-/
import proofs.«420665_j37503654429371_1_alg».proof.KernelIdeal
import proofs.«420665_j37503654429371_1_alg».proof.Pre_finite_inputs
import Idealize.ShloMosaic.Lib.ValueIdx
import Idealize.ShloMosaic.Lib.Pipeline.Value
import Idealize.ShloMosaic.Lib.ReduceAll

noncomputable section

open Idealize.ShloMosaic Idealize.ShloMosaic.ValueIdx

namespace Cert.KernelIdeal.TakeRows

open Cert.KernelIdeal Cert.KernelIdeal.Facts₀

variable {F : FTy → Type} [FloatOps F] [Cert.KernelIdeal.Facts]

/-- The index words with a negative one moved up by the table's row count, as a column. -/
def wrapped (a1 : IVec S800000 32) : IVec S800000x1 32 :=
  broadcastInDim S800000x1 ![0] bcast_S800000_S800000x1_0
    (select (cmpi .slt a1 (broadcastInDim S800000 ![] bcast_S_S800000 (constantI S_ 32 0#32)))
      (addi a1 (broadcastInDim S800000 ![] bcast_S_S800000 (constantI S_ 32 100000#32))) a1)

/-- Position by position: is the wrapped index one of the rows `0 … 99999`? -/
def inRange (a1 : IVec S800000 32) : IVec S800000 1 :=
  Host.reduce IntOp.andi
    (andi (cmpi .sge (wrapped a1) (broadcastInDim S800000x1 ![] bcast_S_S800000x1 (constantI S_ 32 0#32)))
      (cmpi .sle (wrapped a1) (broadcastInDim S800000x1 ![0, 1] bcast_S1x1_S800000x1_0_1
        (broadcastInDim S1x1 ![1] bcast_S1_S1x1_1 (constantI S1 32 99999#32)))))
    (constantI S_ 1 1#1) reducesTo_S800000x1_S800000_d1 h_S_

/-- The rows taken: the gathered row where the index is in range, the fill value elsewhere. -/
def taken (x : S100000x128.Idx → Elt F .f32) (a1 : IVec S800000 32) : S800000x128.Idx → Elt F .f32 :=
  select (broadcastInDim S800000x128 ![0] bcast_S800000_S800000x128_0 (inRange a1))
    (Host.gather gather_S100000x128_S800000x1_S800000x128_1_0_n_n_0_1_1128 x (wrapped a1))
    (broadcastInDim S800000x128 ![] bcast_S_S800000x128 (constant (F := F) S_ .f32 0x7FC00000#32))

/-- Every index word is at least 0 and below 100000, as signed 32-bit integers. -/
def AllRows (a1 : IVec S800000 32) : Prop :=
  ∀ e : S800000.Idx, IntOp.cmpi .sge (a1 e) 0#32 = 1#1 ∧ IntOp.cmpi .slt (a1 e) 100000#32 = 1#1

/-- A word that is at least 0, read signed, is not below 0. -/
theorem slt_zero_of_sge {w : BitVec 32} (hw : IntOp.cmpi .sge w 0#32 = 1#1) : IntOp.cmpi .slt w 0#32 = 0#1 := by
  rcases BitVec.eq_zero_or_eq_one (IntOp.cmpi .slt w 0#32) with h0 | h1
  · exact h0
  · rw [IntOp.cmpi_slt] at h1
    rw [IntOp.cmpi_sge] at hw
    omega

/-- A word below 100000, read signed, is at most 99999. -/
theorem sle_of_slt {w : BitVec 32} (hw : IntOp.cmpi .slt w 100000#32 = 1#1) : IntOp.cmpi .sle w 99999#32 = 1#1 := by
  rw [IntOp.cmpi_slt, show (100000#32 : BitVec 32).toInt = 100000 from by decide] at hw
  rw [IntOp.cmpi_sle, show (99999#32 : BitVec 32).toInt = 99999 from by decide]
  omega

/-- A left fold by `and` from 1 over words that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_of_all_one f hf l

/-- Where every index is a row of the table the wrap moves nothing: the column holds the index words themselves. -/
theorem wrapped_apply (a1 : IVec S800000 32) (h : AllRows a1) (j : S800000x1.Idx) : wrapped a1 j = a1 (ix1 (j 0)) := by
  unfold wrapped
  rw [broadcastInDim_apply _ _ _ j (ix1 (n := 800000) (j 0)) (fun a => by match a with | ⟨0, _⟩ => rfl), select_apply]
  show Scalar.select (IntOp.cmpi .slt (a1 (ix1 (j 0))) 0#32) _ _ = _
  rw [slt_zero_of_sge (h (ix1 (j 0))).1, select_zero]

/-- Where every index is a row of the table the in-range test is true at every position. -/
theorem inRange_apply (a1 : IVec S800000 32) (h : AllRows a1) (e : S800000.Idx) : inRange a1 e = 1#1 := by
  unfold inRange
  rw [Host.reduce_eq_foldl]
  refine foldl_andi_of_all_one _ (fun i => ?_) _
  show IntOp.andi (IntOp.cmpi .sge (wrapped a1 i) 0#32) (IntOp.cmpi .sle (wrapped a1 i) 99999#32) = 1#1
  rw [wrapped_apply a1 h i, IntOp.andi_eq_one]
  exact ⟨(h _).1, sle_of_slt (h _).2⟩

/-- With every index a row of the table nothing is replaced: the rows taken are the rows gathered. -/
theorem taken_eq_gather (x : S100000x128.Idx → Elt F .f32) (a1 : IVec S800000 32) (h : AllRows a1) :
    taken x a1 = Host.gather gather_S100000x128_S800000x1_S800000x128_1_0_n_n_0_1_1128 x (wrapped a1) := by
  funext i
  unfold taken
  rw [select_apply, broadcastInDim_apply _ _ _ i (ix1 (n := 800000) (i 0)) (fun a => by match a with | ⟨0, _⟩ => rfl),
    inRange_apply a1 h, select_one]

end Cert.KernelIdeal.TakeRows

namespace Cert.Pre_finite_inputs.Range

variable {F : FTy → Type} [FloatOps F] [Cert.Pre_finite_inputs.Facts] [Cert.KernelIdeal.Facts]

/-- The precondition's last conjunct, read: every source index is a row of the table. -/
theorem allRows_of_pre (a0 : FVec F Cert.Pre_finite_inputs.S100000x128 .f32) (a1 a2 : IVec Cert.Pre_finite_inputs.S800000 32)
    (a3 : FVec F Cert.Pre_finite_inputs.S128x128 .f32) (a4 : FVec F Cert.Pre_finite_inputs.S128 .f32) (a5 : FVec F Cert.Pre_finite_inputs.S128x1 .f32)
    (h : Cert.Pre_finite_inputs.fn (F := F) a0 a1 a2 a3 a4 a5 = fun _ => 1#1) :
    Cert.KernelIdeal.TakeRows.AllRows a1 := by
  have h0 := congrFun h ValueIdx.ix0
  dsimp only [Cert.Pre_finite_inputs.fn, Cert.Pre_finite_inputs.fn_part1] at h0
  have h1 : IntOp.andi _ (Host.reduce IntOp.andi _ _ Cert.Pre_finite_inputs.Facts.reducesTo_S800000_S_d0
      Cert.Pre_finite_inputs.Facts.h_S_ ValueIdx.ix0) = 1#1 := h0
  haveI : Subsingleton Cert.Pre_finite_inputs.S_.Idx := ⟨fun a b => funext fun d => d.elim0⟩
  have hall := Host.reduce_andi_all _ _ _ _ _ (IntOp.andi_eq_one.1 h1).2
  intro e
  have he : IntOp.andi (IntOp.cmpi .sge (a1 e) 0#32) (IntOp.cmpi .slt (a1 e) 100000#32) = 1#1 := hall e
  exact IntOp.andi_eq_one.1 he

end Cert.Pre_finite_inputs.Range

end
-- ==== Proof.HostGlue.lean ====
/-
  The kernel program's host operations around its two regions, read as values. With `n(r)` the number of edges
  whose source word is `r` and `n'(d)` the number whose destination word is `d`:

    * before region 0 the factor column is `rsqrt (max n(r) 1)` at row `r`, reshaped `[100000] → [100000, 1]`;
    * between the regions the scaled table's rows are taken at the source words and added up at the destination
      words (the aggregate), the second factor column is `rsqrt (max n'(d) 1)`, reshaped `[50000] → [50000, 1]`,
      and the bias and the attention vector are reshaped to rows `[1, 128]`.

  Every statement here is about one stretch of host operations run from arbitrary contents `X` of the buffers, and
  says what one buffer holds afterwards as a term of the contents of the buffers the stretch reads; a buffer a stretch
  does not write keeps its contents.
-/
import proofs.«420665_j37503654429371_1_alg».proof.Proof.Gen.KernelIdeal.Frame
import proofs.«420665_j37503654429371_1_alg».proof.Proof.TakeRows
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Glue

open Cert.KernelIdeal Cert.KernelIdeal.Gen Cert.KernelIdeal.TakeRows

variable {F : FTy → Type} [FloatOps F]

/-! ## The host terms, named -/

/-- `rsqrt (max n(r) 1)`, `n(r)` the number of positions whose index word is row `r` of 100000 (a scatter-add of
    ones into zeros; a word that is no row is dropped). -/
def srcFactor (a1 : IVec S800000 32) : FVec F S100000 .f32 :=
  Host.rsqrt (maximumf
    (Host.scatterAdd scatter_S100000_S800000x1_S800000_n_0_0_1
      (broadcastInDim S100000 ![] bcast_S_S100000 (constant (F := F) S_ .f32 0x00000000#32))
      (broadcastInDim S800000x1 ![0] bcast_S800000_S800000x1_0 a1)
      (broadcastInDim S800000 ![] bcast_S_S800000 (constant (F := F) S_ .f32 0x3F800000#32)))
    (broadcastInDim S100000 ![] bcast_S_S100000 (constant (F := F) S_ .f32 0x3F800000#32)))

/-- The number of positions whose index word is row `d` of 50000, as a float. -/
def dstCount (a2 : IVec S800000 32) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 a2)
    (broadcastInDim S800000 ![] bcast_S_S800000 (constant (F := F) S_ .f32 0x3F800000#32))

/-- `rsqrt (max n' 1)` of a count vector. -/
def dstFactor (n' : FVec F S50000 .f32) : FVec F S50000 .f32 :=
  Host.rsqrt (maximumf n' (broadcastInDim S50000 ![] bcast_S_S50000 (constant (F := F) S_ .f32 0x3F800000#32)))

/-- The rows added up at their destination words: a scatter-add into zeros. -/
def aggregate (rows : FVec F S800000x128 .f32) (a2 : IVec S800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 a2) rows

variable (X : Valuation τ sig (Elt F))

/-! ## The stretch before region 0 -/

theorem before0_factor : StableHlo.after (hostOps0 (F := F)) X (Proc.devRef .tc main_v10)
    = shapeCast S100000x1 (srcFactor (F := F) (X (Proc.devRef .tc main_arg1))) shapeCasts_S100000_S100000x1 := by
  after_results <;> rfl
theorem before0_count : StableHlo.after (hostOps0 (F := F)) X (Proc.devRef .tc main_v6)
    = dstCount (F := F) (X (Proc.devRef .tc main_arg2)) := by
  after_results <;> rfl
theorem before0_arg0 : StableHlo.after (hostOps0 (F := F)) X (Proc.devRef .tc main_arg0) = X (Proc.devRef .tc main_arg0) := by
  after_results <;> rfl
theorem before0_arg1 : StableHlo.after (hostOps0 (F := F)) X (Proc.devRef .tc main_arg1) = X (Proc.devRef .tc main_arg1) := by
  after_results <;> rfl
theorem before0_arg2 : StableHlo.after (hostOps0 (F := F)) X (Proc.devRef .tc main_arg2) = X (Proc.devRef .tc main_arg2) := by
  after_results <;> rfl
theorem before0_arg3 : StableHlo.after (hostOps0 (F := F)) X (Proc.devRef .tc main_arg3) = X (Proc.devRef .tc main_arg3) := by
  after_results <;> rfl
theorem before0_arg4 : StableHlo.after (hostOps0 (F := F)) X (Proc.devRef .tc main_arg4) = X (Proc.devRef .tc main_arg4) := by
  after_results <;> rfl
theorem before0_arg5 : StableHlo.after (hostOps0 (F := F)) X (Proc.devRef .tc main_arg5) = X (Proc.devRef .tc main_arg5) := by
  after_results <;> rfl

/-! ## The row take between the regions -/

theorem take_arg2 : StableHlo.after (hostOps1 (F := F)) X (Proc.devRef .tc main_arg2) = X (Proc.devRef .tc main_arg2) := by
  after_results <;> rfl
theorem take_arg3 : StableHlo.after (hostOps1 (F := F)) X (Proc.devRef .tc main_arg3) = X (Proc.devRef .tc main_arg3) := by
  after_results <;> rfl
theorem take_arg4 : StableHlo.after (hostOps1 (F := F)) X (Proc.devRef .tc main_arg4) = X (Proc.devRef .tc main_arg4) := by
  after_results <;> rfl
theorem take_arg5 : StableHlo.after (hostOps1 (F := F)) X (Proc.devRef .tc main_arg5) = X (Proc.devRef .tc main_arg5) := by
  after_results <;> rfl
theorem take_count : StableHlo.after (hostOps1 (F := F)) X (Proc.devRef .tc main_v6) = X (Proc.devRef .tc main_v6) := by
  after_results <;> rfl

/-! ## The stretch before region 1 -/

theorem before1_aggregate : StableHlo.after (hostOps1_1 (F := F)) X (Proc.devRef .tc main_v15)
    = aggregate (F := F) (X (Proc.devRef .tc main_v12)) (X (Proc.devRef .tc main_arg2)) := by
  after_results <;> rfl
theorem before1_factor : StableHlo.after (hostOps1_1 (F := F)) X (Proc.devRef .tc main_v19)
    = shapeCast S50000x1 (dstFactor (F := F) (X (Proc.devRef .tc main_v6))) shapeCasts_S50000_S50000x1 := by
  after_results <;> rfl
theorem before1_bias : StableHlo.after (hostOps1_1 (F := F)) X (Proc.devRef .tc main_v20)
    = shapeCast S1x128 (X (Proc.devRef .tc main_arg4) : FVec F S128 .f32) shapeCasts_S128_S1x128 := by
  after_results <;> rfl
theorem before1_attn : StableHlo.after (hostOps1_1 (F := F)) X (Proc.devRef .tc main_v21)
    = shapeCast S1x128 (X (Proc.devRef .tc main_arg5) : FVec F S128x1 .f32) shapeCasts_S128x1_S1x128 := by
  after_results <;> rfl
theorem before1_arg3 : StableHlo.after (hostOps1_1 (F := F)) X (Proc.devRef .tc main_arg3) = X (Proc.devRef .tc main_arg3) := by
  after_results <;> rfl

end Cert.KernelIdeal.Glue

end
-- ==== Proof.LibTypedRef.lean ====
/-
  A general fact about typed buffer references (`StableHlo.TRef`). A typed reference carries a proof that its
  buffer's type is the value's type, and moves contents between the two by transport along that proof. Transporting
  there and back is the identity, whatever the proof is: so a value written through a typed reference and read back
  through the same one is the value, with nothing to compute about the buffer's type.
-/
import Idealize.ShloMosaic.Lib.StableHlo

namespace Idealize.ShloMosaic.StableHlo.TRef

variable {sig : RefSig} {Val : EltTy → Type} {T : BufTy}

/-- Contents put into a typed reference's buffer and taken out again are the contents: the two transports compose to a
    transport along `T.Contents Val = T.Contents Val`, which is the identity. -/
theorem ofBuf_toBuf (x : TRef sig T) (v : T.Contents Val) : x.ofBuf (x.toBuf v) = v := by
  show cast _ (cast _ v) = v
  rw [cast_cast]
  exact cast_eq _ _

end Idealize.ShloMosaic.StableHlo.TRef
-- ==== Proof.LibAfterAppend.lean ====
/-
  A general fact about the fold of host operations over buffer contents: running a list of operations that is a
  concatenation is running the first part and then the second from what the first left.
-/
import Idealize.ShloMosaic.Lib.StableHlo.Run

namespace Idealize.ShloMosaic.StableHlo

variable {τ : Topo} {sig : RefSig} {Val : EltTy → Type}

/-- The contents after `l₁ ++ l₂` from `V` are the contents after `l₂` from the contents after `l₁` from `V`: by induction
    on `l₁`, each operation rewriting the buffers it writes before the rest of the list runs. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.TakeGlue.lean ====
/-
  The row take between the two regions (the host code of `jnp.take`: 23 operations over typed buffer references), read
  as a value. The stretch is cut in three — the index words wrapped into a column; the in-range test of the wrapped
  words; the gather and the masked select — each part run from ANY contents of the buffers, so that what a part reads
  of an earlier part is just the contents of a buffer; run one after the other they are the whole stretch (the fold over
  a concatenation), and the three values compose to `TakeRows.taken` of the table and the index words.
  A value written through a typed reference and read back through it is the value (the transport along the reference's
  type equation, there and back).
-/
import proofs.«420665_j37503654429371_1_alg».proof.Proof.Gen.KernelIdeal.Frame
import proofs.«420665_j37503654429371_1_alg».proof.Proof.TakeRows
import proofs.«420665_j37503654429371_1_alg».proof.Proof.LibTypedRef
import proofs.«420665_j37503654429371_1_alg».proof.Proof.LibAfterAppend
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.TakeGlue

open Cert.KernelIdeal Cert.KernelIdeal.Gen Cert.KernelIdeal.TakeRows

variable {F : FTy → Type} [FloatOps F]

/-- The first eight operations: the index words, a negative one moved up by the row count, as a column. -/
abbrev wrapOps : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_arg1 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_arg1 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_arg1 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]

/-- The next ten: is each wrapped word one of the rows `0 … 99999`? -/
abbrev rangeOps : List (HloOp τ sig (Elt F)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]

/-- The last five: the rows gathered at the wrapped words, and the fill value where the word is no row. -/
abbrev selectOps : List (HloOp τ sig (Elt F)) :=
  [ StableHlo.TRef.binary (.of main_v11 : StableHlo.TRef sig ⟨S100000x128, .f32⟩) (.of main_call0_v5 : StableHlo.TRef sig ⟨S800000x1, .i32⟩) (.of main_call0_v13 : StableHlo.TRef sig ⟨S800000x128, .f32⟩) (fun x i => Host.gather gather_S100000x128_S800000x1_S800000x128_1_0_n_n_0_1_1128 x i),
    StableHlo.TRef.unary (.of main_call0_v12 : StableHlo.TRef sig ⟨S800000, .i1⟩) (.of main_call0_v14 : StableHlo.TRef sig ⟨S800000x128, .i1⟩) (broadcastInDim S800000x128 ![0] bcast_S800000_S800000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S800000x128, .f32⟩) (broadcastInDim S800000x128 ![] bcast_S_S800000x128),
    StableHlo.TRef.ternary (.of main_call0_v14 : StableHlo.TRef sig ⟨S800000x128, .i1⟩) (.of main_call0_v13 : StableHlo.TRef sig ⟨S800000x128, .f32⟩) (.of main_call0_v15 : StableHlo.TRef sig ⟨S800000x128, .f32⟩) (.of main_v12 : StableHlo.TRef sig ⟨S800000x128, .f32⟩) select ]

/-- The stretch is the three parts one after the other. -/
theorem parts : (hostOps1 (F := F)) = wrapOps ++ (rangeOps ++ selectOps) := rfl

variable (X : Valuation τ sig (Elt F))

/-! ## What each part writes -/

theorem wrap_column : StableHlo.after (wrapOps (F := F)) X (Proc.devRef .tc main_call0_v5)
    = wrapped (X (Proc.devRef .tc main_arg1) : IVec S800000 32) := by
  after_results
  simp only [StableHlo.TRef.ofBuf_toBuf]
  rfl

theorem range_test : StableHlo.after (rangeOps (F := F)) X (Proc.devRef .tc main_call0_v12)
    = Host.reduce IntOp.andi
        (andi (cmpi .sge (X (Proc.devRef .tc main_call0_v5) : IVec S800000x1 32) (broadcastInDim S800000x1 ![] bcast_S_S800000x1 (constantI S_ 32 0#32)))
          (cmpi .sle (X (Proc.devRef .tc main_call0_v5) : IVec S800000x1 32) (broadcastInDim S800000x1 ![0, 1] bcast_S1x1_S800000x1_0_1
            (broadcastInDim S1x1 ![1] bcast_S1_S1x1_1 (constantI S1 32 99999#32)))))
        (constantI S_ 1 1#1) reducesTo_S800000x1_S800000_d1 h_S_ := by
  after_results
  simp only [StableHlo.TRef.ofBuf_toBuf]
  refine Eq.trans (cast_eq _ _) ?_
  rfl

theorem masked_select : StableHlo.after (selectOps (F := F)) X (Proc.devRef .tc main_v12)
    = select (broadcastInDim S800000x128 ![0] bcast_S800000_S800000x128_0 (X (Proc.devRef .tc main_call0_v12) : IVec S800000 1))
        (Host.gather gather_S100000x128_S800000x1_S800000x128_1_0_n_n_0_1_1128 (X (Proc.devRef .tc main_v11) : FVec F S100000x128 .f32) (X (Proc.devRef .tc main_call0_v5) : IVec S800000x1 32))
        (broadcastInDim S800000x128 ![] bcast_S_S800000x128 (constant (F := F) S_ .f32 0x7FC00000#32)) := by
  after_results
  simp only [StableHlo.TRef.ofBuf_toBuf]
  rfl

/-! ## What each part leaves alone -/

theorem wrap_table : StableHlo.after (wrapOps (F := F)) X (Proc.devRef .tc main_v11) = X (Proc.devRef .tc main_v11) := by
  after_results <;> rfl
theorem range_table : StableHlo.after (rangeOps (F := F)) X (Proc.devRef .tc main_v11) = X (Proc.devRef .tc main_v11) := by
  after_results <;> rfl
theorem range_column : StableHlo.after (rangeOps (F := F)) X (Proc.devRef .tc main_call0_v5) = X (Proc.devRef .tc main_call0_v5) := by
  after_results <;> rfl

/-! ## The whole stretch -/

/-- After the stretch the taken-rows buffer holds `taken` of the table and the index words as the stretch found them. -/
theorem take_rows : StableHlo.after (hostOps1 (F := F)) X (Proc.devRef .tc main_v12)
    = taken (F := F) (X (Proc.devRef .tc main_v11)) (X (Proc.devRef .tc main_arg1)) := by
  rw [parts, StableHlo.after_append, StableHlo.after_append, masked_select, range_test, range_table, range_column,
    wrap_column, wrap_table]
  rfl

end Cert.KernelIdeal.TakeGlue

end
-- ==== Proof.KernelValue.lean ====
/-
  The kernel program's two results as functions of its six arguments, at the ideal instance:

      h'   = h scaled row by row by rsqrt (max n(r) 1)                       (region 0 on the host's factor column)
      agg  = the rows of h' taken at the source words, added up at the destination words
      out  = the gated output and the gate of (agg, rsqrt (max n'(d) 1), W, b, w)   (region 1)

  read off the run of @main: the final contents of every buffer are the fold of the host stretches and of the two
  regions' arrays from the launch memory, each region's arrays by its value lemma, each host stretch by its own.
-/
import proofs.«420665_j37503654429371_1_alg».proof.Proof.KernelRun
import proofs.«420665_j37503654429371_1_alg».proof.Proof.Region0Value
import proofs.«420665_j37503654429371_1_alg».proof.Proof.Region1Value
import proofs.«420665_j37503654429371_1_alg».proof.Proof.HostGlue
import proofs.«420665_j37503654429371_1_alg».proof.Proof.TakeGlue

set_option maxRecDepth 16384

noncomputable section

open Idealize.ShloMosaic Idealize.ShloMosaic.TcCoe Idealize.SL.Sem

namespace Cert.KernelIdeal.Whole

open Cert.KernelIdeal Cert.KernelIdeal.Gen Cert.KernelIdeal.Glue Cert.KernelIdeal.TakeRows

/-! ## The results as functions of the argument arrays -/

/-- The table scaled row by row by the source-degree factor. -/
def scaledTable (x0 : FVec Ideal S100000x128 .f32) (x1 : IVec S800000 32) : FVec Ideal S100000x128 .f32 :=
  ScaleRows.scaled (F := Ideal) x0 (shapeCast S100000x1 (srcFactor (F := Ideal) x1) shapeCasts_S100000_S100000x1)

/-- The aggregate: the scaled table's rows taken at the source words, added up at the destination words. -/
def aggregated (x0 : FVec Ideal S100000x128 .f32) (x1 x2 : IVec S800000 32) : FVec Ideal S50000x128 .f32 :=
  aggregate (F := Ideal) (taken (F := Ideal) (scaledTable x0 x1) x1) x2

/-- The destination-degree factor as a column. -/
def factorColumn (x2 : IVec S800000 32) : FVec Ideal S50000x1 .f32 :=
  shapeCast S50000x1 (dstFactor (F := Ideal) (dstCount (F := Ideal) x2)) shapeCasts_S50000_S50000x1

/-- The gated output. -/
def result0 (x0 : FVec Ideal S100000x128 .f32) (x1 x2 : IVec S800000 32) (x3 : FVec Ideal S128x128 .f32)
    (x4 : FVec Ideal S128 .f32) (x5 : FVec Ideal S128x1 .f32) : FVec Ideal S50000x128 .f32 :=
  Finalize.gated (aggregated x0 x1 x2) (factorColumn x2) x3 (shapeCast S1x128 x4 shapeCasts_S128_S1x128)
    (shapeCast S1x128 x5 shapeCasts_S128x1_S1x128)

/-- The gate. -/
def result1 (x0 : FVec Ideal S100000x128 .f32) (x1 x2 : IVec S800000 32) (x3 : FVec Ideal S128x128 .f32)
    (x4 : FVec Ideal S128 .f32) (x5 : FVec Ideal S128x1 .f32) : FVec Ideal S50000x1 .f32 :=
  Finalize.gate (aggregated x0 x1 x2) (factorColumn x2) x3 (shapeCast S1x128 x4 shapeCasts_S128_S1x128)
    (shapeCast S1x128 x5 shapeCasts_S128x1_S1x128)

variable (m : (ℓ : Loc nD τ sig) → Buf (Elt Ideal) ℓ) (ρ : Dev nD → PrngReg)

/-! ## Region 1's five input arrays, as it finds them -/

theorem arg0_at1 (c : Dev nD) : V1 m ρ c main_arg0 = m ((c : Thread nD τ).loc main_arg0) :=
  (before0_arg0 (W0 m ρ c)).trans rfl
theorem arg1_at2 (c : Dev nD) : W2 m ρ c (Proc.devRef .tc main_arg1) = m ((c : Thread nD τ).loc main_arg1) :=
  (W2_of_ne m ρ c main_arg1 (by decide)).trans ((before0_arg1 (W0 m ρ c)).trans rfl)
theorem arg2_at2 (c : Dev nD) : W2 m ρ c (Proc.devRef .tc main_arg2) = m ((c : Thread nD τ).loc main_arg2) :=
  (W2_of_ne m ρ c main_arg2 (by decide)).trans ((before0_arg2 (W0 m ρ c)).trans rfl)
theorem arg3_at2 (c : Dev nD) : W2 m ρ c (Proc.devRef .tc main_arg3) = m ((c : Thread nD τ).loc main_arg3) :=
  (W2_of_ne m ρ c main_arg3 (by decide)).trans ((before0_arg3 (W0 m ρ c)).trans rfl)
theorem arg4_at2 (c : Dev nD) : W2 m ρ c (Proc.devRef .tc main_arg4) = m ((c : Thread nD τ).loc main_arg4) :=
  (W2_of_ne m ρ c main_arg4 (by decide)).trans ((before0_arg4 (W0 m ρ c)).trans rfl)
theorem arg5_at2 (c : Dev nD) : W2 m ρ c (Proc.devRef .tc main_arg5) = m ((c : Thread nD τ).loc main_arg5) :=
  (W2_of_ne m ρ c main_arg5 (by decide)).trans ((before0_arg5 (W0 m ρ c)).trans rfl)
theorem count_at2 (c : Dev nD) : W2 m ρ c (Proc.devRef .tc main_v6) = dstCount (F := Ideal) (m ((c : Thread nD τ).loc main_arg2)) :=
  (W2_of_ne m ρ c main_v6 (by decide)).trans ((before0_count (W0 m ρ c)).trans rfl)

/-- Region 0's result array: the scaled table. -/
theorem table_at2 (c : Dev nD) : W2 m ρ c (Proc.devRef .tc main_v11)
    = scaledTable (m ((c : Thread nD τ).loc main_arg0)) (m ((c : Thread nD τ).loc main_arg1)) :=
  (W2_arr m ρ c 2).trans ((ScaleRows.final (V1 m ρ) c).trans
    (congrArg₂ (ScaleRows.scaled (F := Ideal)) (arg0_at1 m ρ c) ((before0_factor (W0 m ρ c)).trans rfl)))

/-- The rows taken between the regions. -/
theorem rows_at3 (c : Dev nD) : W3 m ρ c (Proc.devRef .tc main_v12)
    = taken (F := Ideal) (scaledTable (m ((c : Thread nD τ).loc main_arg0)) (m ((c : Thread nD τ).loc main_arg1))) (m ((c : Thread nD τ).loc main_arg1)) :=
  (TakeGlue.take_rows (W2 m ρ c)).trans (congrArg₂ (taken (F := Ideal)) (table_at2 m ρ c) (arg1_at2 m ρ c))

theorem agg_at4 (c : Dev nD) : V4 m ρ c main_v15
    = aggregated (m ((c : Thread nD τ).loc main_arg0)) (m ((c : Thread nD τ).loc main_arg1)) (m ((c : Thread nD τ).loc main_arg2)) :=
  (before1_aggregate (W3 m ρ c)).trans
    (congrArg₂ (aggregate (F := Ideal)) (rows_at3 m ρ c) ((take_arg2 (W2 m ρ c)).trans (arg2_at2 m ρ c)))

theorem factor_at4 (c : Dev nD) : V4 m ρ c main_v19 = factorColumn (m ((c : Thread nD τ).loc main_arg2)) :=
  (before1_factor (W3 m ρ c)).trans
    (congrArg (fun n => shapeCast S50000x1 (dstFactor (F := Ideal) n) shapeCasts_S50000_S50000x1)
      ((take_count (W2 m ρ c)).trans (count_at2 m ρ c)))

theorem weights_at4 (c : Dev nD) : V4 m ρ c main_arg3 = m ((c : Thread nD τ).loc main_arg3) :=
  (before1_arg3 (W3 m ρ c)).trans ((take_arg3 (W2 m ρ c)).trans (arg3_at2 m ρ c))

theorem bias_at4 (c : Dev nD) : V4 m ρ c main_v20
    = shapeCast S1x128 (m ((c : Thread nD τ).loc main_arg4) : FVec Ideal S128 .f32) shapeCasts_S128_S1x128 :=
  (before1_bias (W3 m ρ c)).trans
    (congrArg (fun x : FVec Ideal S128 .f32 => shapeCast S1x128 x shapeCasts_S128_S1x128) ((take_arg4 (W2 m ρ c)).trans (arg4_at2 m ρ c)))

theorem attn_at4 (c : Dev nD) : V4 m ρ c main_v21
    = shapeCast S1x128 (m ((c : Thread nD τ).loc main_arg5) : FVec Ideal S128x1 .f32) shapeCasts_S128x1_S1x128 :=
  (before1_attn (W3 m ρ c)).trans
    (congrArg (fun x : FVec Ideal S128x1 .f32 => shapeCast S1x128 x shapeCasts_S128x1_S1x128) ((take_arg5 (W2 m ρ c)).trans (arg5_at2 m ρ c)))

/-! ## The two results at the end of the run -/

theorem final0 (c : Dev nD) : W5 m ρ c (Proc.devRef .tc main_v22_0)
    = result0 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W5_arr m ρ c 5).trans ((Finalize.final5 (V4 m ρ) c).trans ?_)
  rw [agg_at4, factor_at4, weights_at4, bias_at4, attn_at4]
  rfl

theorem final1 (c : Dev nD) : W5 m ρ c (Proc.devRef .tc main_v22_1)
    = result1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W5_arr m ρ c 6).trans ((Finalize.final6 (V4 m ρ) c).trans ?_)
  rw [agg_at4, factor_at4, weights_at4, bias_at4, attn_at4]
  rfl

/-- The run of the kernel program, read: both results at their functions of the arguments, the arguments unchanged. -/
theorem run : θ_run defs (onTc (τ := τ) (main (F := Ideal))) ⟨m, fun _ => 0, ρ⟩ (fun r => ∀ c : Dev nD,
      r.2.mem ((c.tc : Thread nD τ).loc main_v22_0)
        = result0 (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_v22_1)
        = result1 (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v22_0 (by decide))).trans (final0 m ρ c),
       (h c _ (mem_uc main_v22_1 (by decide))).trans (final1 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)
    (Cert.KernelIdeal.Run.run_all m ρ)

end Cert.KernelIdeal.Whole

end
-- ==== Proof.Equal.lean ====
/-
  The two programs' results are one function of the arguments, where every source word is a row of the table.
  The kernel's scaled table is the reference's product `h · rsqrt (max n 1)` (a reshape to a column against two
  broadcasts); with every source word in range the kernel's row take keeps every gathered row, so the two aggregates
  are the same scatter-add of the same rows; the two destination factors are the same host term; and on equal
  aggregates and factors the reference's tail is the kernel's gated output and gate.
-/
import proofs.«420665_j37503654429371_1_alg».proof.Proof.RefBridge
import proofs.«420665_j37503654429371_1_alg».proof.Proof.KernelValue

set_option maxRecDepth 16384

noncomputable section

open Idealize.ShloMosaic

namespace Cert.Bridge

open Cert.ReferenceIdeal Cert.ReferenceIdeal.Read Cert.ReferenceIdeal.Facts₀

variable [Cert.KernelIdeal.Facts] [Cert.ReferenceIdeal.Facts]

/-- The kernel's aggregate is the reference's, where every source word is a row. -/
theorem aggregated_eq (x0 : FVec Ideal S100000x128 .f32) (x1 x2 : IVec S800000 32)
    (h : Cert.KernelIdeal.TakeRows.AllRows x1) :
    Cert.KernelIdeal.Whole.aggregated x0 x1 x2 = val_main_v22 (F := Ideal) x0 x1 x2 := by
  unfold Cert.KernelIdeal.Whole.aggregated Cert.KernelIdeal.Whole.scaledTable
  rw [Cert.KernelIdeal.TakeRows.taken_eq_gather _ x1 h, scaled_eq]
  rfl

/-- The kernel's factor column is the reference's factor vector as a column. -/
theorem factorColumn_eq (x2 : IVec S800000 32) :
    Cert.KernelIdeal.Whole.factorColumn x2
      = shapeCast Cert.KernelIdeal.S50000x1 (val_main_v25 (F := Ideal) x2) Cert.KernelIdeal.Facts₀.shapeCasts_S50000_S50000x1 := rfl

/-- The gated outputs agree. -/
theorem result0_eq (x0 : FVec Ideal S100000x128 .f32) (x1 x2 : IVec S800000 32) (x3 : FVec Ideal S128x128 .f32)
    (x4 : FVec Ideal S128 .f32) (x5 : FVec Ideal S128x1 .f32) (h : Cert.KernelIdeal.TakeRows.AllRows x1) :
    val_main_v41 (F := Ideal) x0 x1 x2 x3 x4 x5 = Cert.KernelIdeal.Whole.result0 x0 x1 x2 x3 x4 x5 := by
  rw [gated_eq]
  unfold Cert.KernelIdeal.Whole.result0
  rw [aggregated_eq x0 x1 x2 h, factorColumn_eq]

/-- The gates agree. -/
theorem result1_eq (x0 : FVec Ideal S100000x128 .f32) (x1 x2 : IVec S800000 32) (x3 : FVec Ideal S128x128 .f32)
    (x4 : FVec Ideal S128 .f32) (x5 : FVec Ideal S128x1 .f32) (h : Cert.KernelIdeal.TakeRows.AllRows x1) :
    val_main_v39 (F := Ideal) x0 x1 x2 x3 x4 x5 = Cert.KernelIdeal.Whole.result1 x0 x1 x2 x3 x4 x5 := by
  rw [gate_eq]
  unfold Cert.KernelIdeal.Whole.result1
  rw [aggregated_eq x0 x1 x2 h, factorColumn_eq]

end Cert.Bridge

end
-- ==== Proof.lean ====
/-
  The certificate of a graph-convolution layer with an attention gate: `frame` for the three programs, `preserves`
  (the idealization rewrote nothing) and `algebraic` (kernel and reference compute the same extended reals).

  The layer, for node features `h` [100000, 128], edges `(src, dst)` [800000], weights `W`, bias `b` and attention
  vector `w`:   h' = h · rsqrt (max (out-degree) 1);   agg[d] = ∑ over edges into d of h'[src];
  out = (agg · rsqrt (max (in-degree) 1)) W + b;   α = logistic (out · w);   results: out · α and α.
  The kernel does the row scaling and the tail (scale, matrix product, bias, gate, product) in two pipelined regions of
  ten row blocks each, and the degree counts, the row take and the scatter-add on the host; the reference does all of
  it on the host. The two agree index by index at the ideal instance: the same sums in the same order, a reshape
  against a broadcast, the logistic function against its expansion.

  The precondition carries, beside the finiteness of the float arguments, that every source word is a row index
  `0 ≤ src < 100000`: outside it the reference's row indexing runs off the table (its gather clamps the index) while the
  kernel's `take` fills the row with the not-a-number word, and the two differ.
-/
import proofs.«420665_j37503654429371_1_alg».proof.Defs
import proofs.«420665_j37503654429371_1_alg».proof.Proof.Gen.Kernel
import proofs.«420665_j37503654429371_1_alg».proof.Proof.Gen.Kernel.Skeleton
import proofs.«420665_j37503654429371_1_alg».proof.Proof.Gen.Kernel.Launch
import proofs.«420665_j37503654429371_1_alg».proof.Proof.Gen.Kernel.Points
import proofs.«420665_j37503654429371_1_alg».proof.Proof.Gen.Kernel.Frame
import proofs.«420665_j37503654429371_1_alg».proof.Proof.Gen.KernelIdeal
import proofs.«420665_j37503654429371_1_alg».proof.Proof.Gen.KernelIdeal.Skeleton
import proofs.«420665_j37503654429371_1_alg».proof.Proof.Gen.KernelIdeal.Launch
import proofs.«420665_j37503654429371_1_alg».proof.Proof.Gen.KernelIdeal.Points
import proofs.«420665_j37503654429371_1_alg».proof.Proof.Gen.KernelIdeal.Frame
import proofs.«420665_j37503654429371_1_alg».proof.Proof.Gen.ReferenceIdeal
import proofs.«420665_j37503654429371_1_alg».proof.Proof.Gen.Pre_finite_inputs
import proofs.«420665_j37503654429371_1_alg».proof.Proof.Gen.ReferenceIdeal.Run
import proofs.«420665_j37503654429371_1_alg».proof.Proof.Gen.ReferenceIdeal.Read
import proofs.«420665_j37503654429371_1_alg».proof.Proof.Equal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- Both programs run; the kernel's results are its two functions of the arguments, the reference's its two composed
    terms, and under the precondition (every source word a row of the table) these are equal. -/
theorem algebraic : Cert.algebraic_KernelIdeal_ReferenceIdeal := by
  intro m ρ m' ρ' hpre hagree
  have hrows : ∀ c : Dev Cert.KernelIdeal.nD, Cert.KernelIdeal.TakeRows.AllRows
      (m ((c.tc : Thread Cert.KernelIdeal.nD Cert.KernelIdeal.τ).loc Cert.KernelIdeal.main_arg1)) :=
    fun c => Cert.Pre_finite_inputs.Range.allRows_of_pre _ _ _ _ _ _ (hpre c)
  refine ⟨_, _, Cert.KernelIdeal.Whole.run m ρ, ?_⟩
  refine (θ_run Cert.ReferenceIdeal.defs _ _).mono (fun r h c => ?_) (Cert.ReferenceIdeal.Value.run (F := Ideal) m' ρ')
  obtain ⟨h41, h39, hargs⟩ := h c
  obtain ⟨e0, e1, e2, e3, e4, e5⟩ := hagree c
  refine ⟨h41.trans ?_, h39.trans ?_, hargs⟩
  · rw [Cert.ReferenceIdeal.Read.val_main_v41_eq, e0, e1, e2, e3, e4, e5]
    exact Cert.Bridge.result0_eq _ _ _ _ _ _ (hrows c)
  · rw [Cert.ReferenceIdeal.Read.val_main_v39_eq, e0, e1, e2, e3, e4, e5]
    exact Cert.Bridge.result1_eq _ _ _ _ _ _ (hrows c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
